-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩

class Facts : Prop where
  bcast_S_S512x6x1024 : S_.BroadcastsInDim S512x6x1024 (![] : Fin 0 → Fin S512x6x1024.rank)
  reducesTo_S512x6x1024_S_d0_1_2 : S512x6x1024.ReducesTo [0, 1, 2] S_
  h_S_ : 0 < S_.numel
  bcast_S_S512x8x6x1024 : S_.BroadcastsInDim S512x8x6x1024 (![] : Fin 0 → Fin S512x8x6x1024.rank)
  reducesTo_S512x8x6x1024_S_d0_1_2_3 : S512x8x6x1024.ReducesTo [0, 1, 2, 3] S_

variable [Facts]

def fn {F : FTy → Type} [FloatOps F] (main_arg0 : FVec F S512x6x1024 .f32) (main_arg1 : FVec F S512x8x6x1024 .f32) (main_arg2 : IVec S512 32) (main_arg3 : IVec S512 32) : IVec S_ 1 :=
  let main_v0 : FVec F S512x6x1024 .f32 := Host.absf main_arg0
  let main_cst : FVec F S_ .f32 := constant S_ .f32 0x7F800000#32
  let main_v1 : FVec F S512x6x1024 .f32 := broadcastInDim S512x6x1024 ![] bcast_S_S512x6x1024 main_cst
  let main_v2 : IVec S512x6x1024 1 := cmpf .olt main_v0 main_v1
  let main_c : IVec S_ 1 := constantI S_ 1 1#1
  let main_v3 : IVec S_ 1 := (fun x v => Host.reduce IntOp.andi x v reducesTo_S512x6x1024_S_d0_1_2 h_S_) main_v2 main_c
  let main_v4 : FVec F S512x8x6x1024 .f32 := Host.absf main_arg1
  let main_cst_0 : FVec F S_ .f32 := constant S_ .f32 0x7F800000#32
  let main_v5 : FVec F S512x8x6x1024 .f32 := broadcastInDim S512x8x6x1024 ![] bcast_S_S512x8x6x1024 main_cst_0
  let main_v6 : IVec S512x8x6x1024 1 := cmpf .olt main_v4 main_v5
  let main_c_1 : IVec S_ 1 := constantI S_ 1 1#1
  let main_v7 : IVec S_ 1 := (fun x v => Host.reduce IntOp.andi x v reducesTo_S512x8x6x1024_S_d0_1_2_3 h_S_) main_v6 main_c_1
  let main_v8 : IVec S_ 1 := andi main_v3 main_v7
  main_v8
-- ==== Kernel.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩
abbrev S64 : Shape := ⟨1, ![64]⟩
abbrev S512x1 : Shape := ⟨2, ![512, 1]⟩
abbrev S512x1x1 : Shape := ⟨3, ![512, 1, 1]⟩
abbrev S64x6x1024 : Shape := ⟨3, ![64, 6, 1024]⟩
abbrev S64x1x1 : Shape := ⟨3, ![64, 1, 1]⟩
abbrev S1x6 : Shape := ⟨2, ![1, 6]⟩
abbrev S128x1x6x1024 : Shape := ⟨4, ![128, 1, 6, 1024]⟩
abbrev S128x6x1024 : Shape := ⟨3, ![128, 6, 1024]⟩
abbrev S128x1 : Shape := ⟨2, ![128, 1]⟩
abbrev S128x6 : Shape := ⟨2, ![128, 6]⟩
abbrev S6 : Shape := ⟨1, ![6]⟩

abbrev nBuf : Space → Nat
  | .hbm => 132
  | .vmem => 10
  | .smem => 0
  | _ => 0

abbrev hbmTy0_0 (i : Nat) : BufTy := match i % 128 with
  | 0 => ⟨S512x6x1024, .f32⟩
  | 1 => ⟨S512x8x6x1024, .f32⟩
  | 2 => ⟨S512, .i32⟩
  | 3 => ⟨S512, .i32⟩
  | 4 => ⟨S_, .i32⟩
  | 5 => ⟨S512, .i32⟩
  | 6 => ⟨S512, .i1⟩
  | 7 => ⟨S512, .f32⟩
  | 8 => ⟨S_, .f32⟩
  | 9 => ⟨S512, .f32⟩
  | 10 => ⟨S512, .f32⟩
  | 11 => ⟨S_, .f32⟩
  | 12 => ⟨S64, .f32⟩
  | 13 => ⟨S512x1, .i32⟩
  | 14 => ⟨S64, .f32⟩
  | 15 => ⟨S_, .f32⟩
  | 16 => ⟨S64, .f32⟩
  | 17 => ⟨S512x1, .i32⟩
  | 18 => ⟨S64, .f32⟩
  | 19 => ⟨S512x1x1, .f32⟩
  | 20 => ⟨S512x6x1024, .f32⟩
  | 21 => ⟨S512x6x1024, .f32⟩
  | 22 => ⟨S_, .f32⟩
  | 23 => ⟨S64x6x1024, .f32⟩
  | 24 => ⟨S512x1, .i32⟩
  | 25 => ⟨S64x6x1024, .f32⟩
  | 26 => ⟨S512x1x1, .f32⟩
  | 27 => ⟨S512x6x1024, .f32⟩
  | 28 => ⟨S512x6x1024, .f32⟩
  | 29 => ⟨S_, .f32⟩
  | 30 => ⟨S64x6x1024, .f32⟩
  | 31 => ⟨S512x1, .i32⟩
  | 32 => ⟨S64x6x1024, .f32⟩
  | 33 => ⟨S_, .f32⟩
  | 34 => ⟨S64, .f32⟩
  | 35 => ⟨S64, .f32⟩
  | 36 => ⟨S64x1x1, .f32⟩
  | 37 => ⟨S64x6x1024, .f32⟩
  | 38 => ⟨S64x6x1024, .f32⟩
  | 39 => ⟨S_, .f32⟩
  | 40 => ⟨S64, .f32⟩
  | 41 => ⟨S64, .f32⟩
  | 42 => ⟨S64x1x1, .f32⟩
  | 43 => ⟨S64x6x1024, .f32⟩
  | 44 => ⟨S64x6x1024, .f32⟩
  | 45 => ⟨S_, .f32⟩
  | 46 => ⟨S64, .f32⟩
  | 47 => ⟨S64, .i1⟩
  | 48 => ⟨S_, .f32⟩
  | 49 => ⟨S64, .f32⟩
  | 50 => ⟨S64, .i1⟩
  | 51 => ⟨S64, .i1⟩
  | 52 => ⟨S64, .f32⟩
  | 53 => ⟨S_, .f32⟩
  | 54 => ⟨S_, .f32⟩
  | 55 => ⟨S512x1x1, .i1⟩
  | 56 => ⟨S_, .i32⟩
  | 57 => ⟨S512, .i32⟩
  | 58 => ⟨S512, .i1⟩
  | 59 => ⟨S_, .i32⟩
  | 60 => ⟨S512, .i32⟩
  | 61 => ⟨S512, .i32⟩
  | 62 => ⟨S512, .i32⟩
  | 63 => ⟨S512x1, .i32⟩
  | 64 => ⟨S512x6x1024, .f32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x6x1024, .f32⟩
  | 74 => ⟨S512x6x1024, .i1⟩
  | 75 => ⟨S512x6x1024, .f32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S512, .f32⟩
  | 85 => ⟨S_, .i32⟩
  | 86 => ⟨S512, .i32⟩
  | 87 => ⟨S512, .i1⟩
  | 88 => ⟨S_, .i32⟩
  | 89 => ⟨S512, .i32⟩
  | 90 => ⟨S512, .i32⟩
  | 91 => ⟨S512, .i32⟩
  | 92 => ⟨S512x1, .i32⟩
  | 93 => ⟨S512, .f32⟩
  | 94 => ⟨S512, .f32⟩
  | 95 => ⟨S_, .i32⟩
  | 96 => ⟨S512, .i32⟩
  | 97 => ⟨S512, .i1⟩
  | 98 => ⟨S_, .i32⟩
  | 99 => ⟨S512, .i32⟩
  | 100 => ⟨S512, .i32⟩
  | 101 => ⟨S512, .i32⟩
  | 102 => ⟨S512x1, .i32⟩
  | 103 => ⟨S512, .i1⟩
  | 104 => ⟨S_, .f32⟩
  | 105 => ⟨S512, .f32⟩
  | 106 => ⟨S512, .f32⟩
  | 107 => ⟨S_, .f32⟩
  | 108 => ⟨S512, .f32⟩
  | 109 => ⟨S512, .f32⟩
  | 110 => ⟨S_, .f32⟩
  | 111 => ⟨S512, .f32⟩
  | 112 => ⟨S512, .f32⟩
  | 113 => ⟨S_, .f32⟩
  | 114 => ⟨S_, .f32⟩
  | 115 => ⟨S512, .f32⟩
  | 116 => ⟨S512, .f32⟩
  | 117 => ⟨S512x1, .f32⟩
  | 118 => ⟨S1x6, .f32⟩
  | 119 => ⟨S6, .f32⟩
  | 120 => ⟨S_, .f32⟩
  | 121 => ⟨S_, .f32⟩
  | 122 => ⟨S_, .f32⟩
  | 123 => ⟨S_, .i1⟩
  | 124 => ⟨S6, .f32⟩
  | 125 => ⟨S6, .f32⟩
  | 126 => ⟨S_, .f32⟩
  | 127 => ⟨S_, .f32⟩
  | _ => ⟨S512x6x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S512x6x1024, .f32⟩

abbrev hbmTy (i : Nat) : BufTy := match i / 128 with
  | 0 => hbmTy0_0 i
  | 1 => hbmTy0_1 i
  | _ => ⟨S512x6x1024, .f32⟩

abbrev bufTy : (tb : Table) → Fin (tcTables nBuf tb) → BufTy
  | .hbm, ⟨i, _⟩ => hbmTy i
  | .local _ .vmem, ⟨0, _⟩ => ⟨S128x1x6x1024, .f32⟩
  | .local _ .vmem, ⟨1, _⟩ => ⟨S128x1x6x1024, .f32⟩
  | .local _ .vmem, ⟨2, _⟩ => ⟨S128x6x1024, .f32⟩
  | .local _ .vmem, ⟨3, _⟩ => ⟨S128x6x1024, .f32⟩
  | .local _ .vmem, ⟨4, _⟩ => ⟨S128x6x1024, .f32⟩
  | .local _ .vmem, ⟨5, _⟩ => ⟨S128x6x1024, .f32⟩
  | .local _ .vmem, ⟨6, _⟩ => ⟨S128x1, .f32⟩
  | .local _ .vmem, ⟨7, _⟩ => ⟨S128x1, .f32⟩
  | .local _ .vmem, ⟨8, _⟩ => ⟨S1x6, .f32⟩
  | .local _ .vmem, ⟨9, _⟩ => ⟨S1x6, .f32⟩
  | _, _ => ⟨S512x6x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_15 : Ref sig .tc := ⟨.hbm, 85, rfl⟩
abbrev main_v63 : Ref sig .tc := ⟨.hbm, 86, rfl⟩
abbrev main_v64 : Ref sig .tc := ⟨.hbm, 87, rfl⟩
abbrev main_c_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_17 : Ref sig .tc := ⟨.hbm, 95, rfl⟩
abbrev main_v71 : Ref sig .tc := ⟨.hbm, 96, rfl⟩
abbrev main_v72 : Ref sig .tc := ⟨.hbm, 97, rfl⟩
abbrev main_c_18 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩
abbrev main_cst_22 : Ref sig .tc := ⟨.hbm, 113, rfl⟩
abbrev main_call2_v0 : Ref sig .tc := ⟨.hbm, 114, rfl⟩
abbrev main_call2_v1 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_cst_26 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v37 : BitVec 32 := Scalar.extui v5
  let c0_i32_21 : BitVec 32 := 0#32
  let v38 : BitVec 1 := Scalar.cmpi .ne v37 c0_i32_21
  v38

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1x6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S512 : S_.BroadcastsInDim S512 (![] : Fin 0 → Fin S512.rank)
  bcast_S_S64 : S_.BroadcastsInDim S64 (![] : Fin 0 → Fin S64.rank)
  bcast_S512_S512x1_0 : S512.BroadcastsInDim S512x1 (![0] : Fin 1 → Fin S512x1.rank)
  bcast_S512_S512x1x1_0 : S512.BroadcastsInDim S512x1x1 (![0] : Fin 1 → Fin S512x1x1.rank)
  bcast_S512x1x1_S512x6x1024_0_1_2 : S512x1x1.BroadcastsInDim S512x6x1024 (![0, 1, 2] : Fin 3 → Fin S512x6x1024.rank)
  bcast_S_S64x6x1024 : S_.BroadcastsInDim S64x6x1024 (![] : Fin 0 → Fin S64x6x1024.rank)
  bcast_S64_S64x1x1_0 : S64.BroadcastsInDim S64x1x1 (![0] : Fin 1 → Fin S64x1x1.rank)
  bcast_S64x1x1_S64x6x1024_0_1_2 : S64x1x1.BroadcastsInDim S64x6x1024 (![0, 1, 2] : Fin 3 → Fin S64x6x1024.rank)
  reducesTo_S64_S_d0 : S64.ReducesTo [0] S_
  h_S_ : 0 < S_.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S128x1x6x1024_S128x1x6x1024_0_0_0_0 : ∀ a, (![0, 0, 0, 0] : Fin 4 → Nat) a + S128x1x6x1024.size a ≤ S128x1x6x1024.size a
  h_S128x1x6x1024 : 0 < S128x1x6x1024.numel
  shapeCasts_S128x1x6x1024_S128x6x1024 : S128x1x6x1024.ShapeCasts S128x6x1024
  inb_S128x6x1024_S128x6x1024_0_0_0 : ∀ a, (![0, 0, 0] : Fin 3 → Nat) a + S128x6x1024.size a ≤ S128x6x1024.size a
  h_S128x6x1024 : 0 < S128x6x1024.numel
  shapeCasts_S128x6x1024_S128x6x1024 : S128x6x1024.ShapeCasts S128x6x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x6x1024_S128x6 : S128x6x1024.Reduces [2] S128x6
  broadcasts_S128x1_S128x6 : S128x1.Broadcasts S128x6
  reduces_S128x6_S6 : S128x6.Reduces [0] S6
  shapeCasts_S6_S1x6 : S6.ShapeCasts S1x6
  shapeCasts_S1x6_S6 : S1x6.ShapeCasts S6
  bcast_S_S6 : S_.BroadcastsInDim S6 (![] : Fin 0 → Fin S6.rank)
  reducesTo_S6_S_d0 : S6.ReducesTo [0] S_
  scatter_S64_S512x1_S512_n_0_0_1_wf : ScatterDims.WF S64 S512x1 S512 [] [0] [0] 1
  scatter_S64x6x1024_S512x1_S512x6x1024_12_0_0_1_wf : ScatterDims.WF S64x6x1024 S512x1 S512x6x1024 [1, 2] [0] [0] 1
  gather_S64x6x1024_S512x1_S512x6x1024_12_0_n_n_0_1_161024_wf : GatherDims.WF S64x6x1024 S512x1 S512x6x1024 [1, 2] [0] [] [0] [] 1 ![1, 6, 1024]
  gather_S64_S512x1_S512_n_0_n_n_0_1_1_wf : GatherDims.WF S64 S512x1 S512 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1x6x1024.size a ≤ S512x8x6x1024.size a
  hwx0_0 : ∀ i : grid0.Coords, EltTy.bits .f32 = 32 ∨ (Rect.block (s := S512x8x6x1024) S128x1x6x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x6x1024.size a ≤ S512x6x1024.size a
  hwx0_1 : ∀ i : grid0.Coords, EltTy.bits .f32 = 32 ∨ (Rect.block (s := S512x6x1024) S128x6x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x6x1024.size a ≤ S512x6x1024.size a
  hwx0_2 : ∀ i : grid0.Coords, EltTy.bits .f32 = 32 ∨ (Rect.block (s := S512x6x1024) S128x6x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S512x1.size a
  hwx0_3 : ∀ i : grid0.Coords, EltTy.bits .f32 = 32 ∨ (Rect.block (s := S512x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6.size a ≤ S1x6.size a
  hwx0_4 : ∀ i : grid0.Coords, EltTy.bits .f32 = 32 ∨ (Rect.block (s := S1x6) S1x6.size (cc0_transform_4 i) (hinb0_4 i)).WholeWords (EltTy.packing .f32)

variable [Facts₀]

def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def scatter_S64x6x1024_S512x1_S512x6x1024_12_0_0_1 : ScatterDims S64x6x1024 S512x1 S512x6x1024 where
  updateWindowDims := [1, 2]
  insertedWindowDims := [0]
  scatterDimsToOperandDims := [0]
  indexVectorDim := 1
  wf := scatter_S64x6x1024_S512x1_S512x6x1024_12_0_0_1_wf
def gather_S64x6x1024_S512x1_S512x6x1024_12_0_n_n_0_1_161024 : GatherDims S64x6x1024 S512x1 S512x6x1024 where
  offsetDims := [1, 2]
  collapsedSliceDims := [0]
  operandBatchingDims := []
  startIndicesBatchingDims := []
  startIndexMap := [0]
  indexVectorDim := 1
  sliceSizes := ![1, 6, 1024]
  wf := gather_S64x6x1024_S512x1_S512x6x1024_12_0_n_n_0_1_161024_wf
def gather_S64_S512x1_S512_n_0_n_n_0_1_1 : GatherDims S64 S512x1 S512 where
  offsetDims := []
  collapsedSliceDims := [0]
  operandBatchingDims := []
  startIndicesBatchingDims := []
  startIndexMap := [0]
  indexVectorDim := 1
  sliceSizes := ![1]
  wf := gather_S64_S512x1_S512_n_0_n_n_0_1_1_wf

abbrev win0_0 : Pipeline.Window sig grid0 :=
  Pipeline.Window.ofSpec (Memref.whole main_arg1) S128x1x6x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x6x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S128x6x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S1x6.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x6x1024 : Shape := ⟨3, ![512, 6, 1024]⟩
abbrev S512x8x6x1024 : Shape := ⟨4, ![512, 8, 6, 1024]⟩
abbrev S512 : Shape := ⟨1, ![512]⟩
abbrev S_ : Shape := ⟨0, ![]⟩
abbrev S64 : Shape := ⟨1, ![64]⟩
abbrev S512x1 : Shape := ⟨2, ![512, 1]⟩
abbrev S512x1x1 : Shape := ⟨3, ![512, 1, 1]⟩
abbrev S64x6x1024 : Shape := ⟨3, ![64, 6, 1024]⟩
abbrev S64x1x1 : Shape := ⟨3, ![64, 1, 1]⟩
abbrev S512x1x6x1024 : Shape := ⟨4, ![512, 1, 6, 1024]⟩
abbrev S512x8x6 : Shape := ⟨3, ![512, 8, 6]⟩
abbrev S6 : Shape := ⟨1, ![6]⟩

abbrev nBuf : Space → Nat
  | .hbm => 155
  | .vmem => 0
  | .smem => 0
  | _ => 0

abbrev hbmTy0_0 (i : Nat) : BufTy := match i % 128 with
  | 0 => ⟨S512x6x1024, .f32⟩
  | 1 => ⟨S512x8x6x1024, .f32⟩
  | 2 => ⟨S512, .i32⟩
  | 3 => ⟨S512, .i32⟩
  | 4 => ⟨S_, .i32⟩
  | 5 => ⟨S512, .i32⟩
  | 6 => ⟨S512, .i1⟩
  | 7 => ⟨S512, .f32⟩
  | 8 => ⟨S_, .f32⟩
  | 9 => ⟨S512, .f32⟩
  | 10 => ⟨S512, .f32⟩
  | 11 => ⟨S_, .f32⟩
  | 12 => ⟨S64, .f32⟩
  | 13 => ⟨S512x1, .i32⟩
  | 14 => ⟨S64, .f32⟩
  | 15 => ⟨S_, .f32⟩
  | 16 => ⟨S64, .f32⟩
  | 17 => ⟨S512x1, .i32⟩
  | 18 => ⟨S64, .f32⟩
  | 19 => ⟨S512x1x1, .f32⟩
  | 20 => ⟨S512x6x1024, .f32⟩
  | 21 => ⟨S512x6x1024, .f32⟩
  | 22 => ⟨S_, .f32⟩
  | 23 => ⟨S64x6x1024, .f32⟩
  | 24 => ⟨S512x1, .i32⟩
  | 25 => ⟨S64x6x1024, .f32⟩
  | 26 => ⟨S512x1x1, .f32⟩
  | 27 => ⟨S512x6x1024, .f32⟩
  | 28 => ⟨S512x6x1024, .f32⟩
  | 29 => ⟨S_, .f32⟩
  | 30 => ⟨S64x6x1024, .f32⟩
  | 31 => ⟨S512x1, .i32⟩
  | 32 => ⟨S64x6x1024, .f32⟩
  | 33 => ⟨S_, .f32⟩
  | 34 => ⟨S64, .f32⟩
  | 35 => ⟨S64, .f32⟩
  | 36 => ⟨S64x1x1, .f32⟩
  | 37 => ⟨S64x6x1024, .f32⟩
  | 38 => ⟨S64x6x1024, .f32⟩
  | 39 => ⟨S_, .f32⟩
  | 40 => ⟨S64, .f32⟩
  | 41 => ⟨S64, .f32⟩
  | 42 => ⟨S64x1x1, .f32⟩
  | 43 => ⟨S64x6x1024, .f32⟩
  | 44 => ⟨S64x6x1024, .f32⟩
  | 45 => ⟨S_, .f32⟩
  | 46 => ⟨S64, .f32⟩
  | 47 => ⟨S64, .i1⟩
  | 48 => ⟨S_, .f32⟩
  | 49 => ⟨S64, .f32⟩
  | 50 => ⟨S64, .i1⟩
  | 51 => ⟨S64, .i1⟩
  | 52 => ⟨S64, .f32⟩
  | 53 => ⟨S_, .f32⟩
  | 54 => ⟨S_, .f32⟩
  | 55 => ⟨S512x1x1, .i1⟩
  | 56 => ⟨S_, .i32⟩
  | 57 => ⟨S512, .i32⟩
  | 58 => ⟨S512, .i1⟩
  | 59 => ⟨S_, .i32⟩
  | 60 => ⟨S512, .i32⟩
  | 61 => ⟨S512, .i32⟩
  | 62 => ⟨S512, .i32⟩
  | 63 => ⟨S512x1, .i32⟩
  | 64 => ⟨S512x6x1024, .f32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x6x1024, .f32⟩
  | 74 => ⟨S512x6x1024, .i1⟩
  | 75 => ⟨S512x6x1024, .f32⟩
  | 76 => ⟨S512x1x6x1024, .f32⟩
  | 77 => ⟨S512x8x6x1024, .f32⟩
  | 78 => ⟨S512x8x6x1024, .f32⟩
  | 79 => ⟨S512x8x6x1024, .f32⟩
  | 80 => ⟨S_, .f32⟩
  | 81 => ⟨S512x8x6, .f32⟩
  | 82 => ⟨S512x8x6, .f32⟩
  | 83 => ⟨S512x1x6x1024, .f32⟩
  | 84 => ⟨S512x8x6x1024, .f32⟩
  | 85 => ⟨S512x8x6x1024, .f32⟩
  | 86 => ⟨S512x8x6x1024, .f32⟩
  | 87 => ⟨S_, .f32⟩
  | 88 => ⟨S512x8x6, .f32⟩
  | 89 => ⟨S512x8x6, .f32⟩
  | 90 => ⟨S512x8x6, .f32⟩
  | 91 => ⟨S_, .f32⟩
  | 92 => ⟨S512x8x6, .f32⟩
  | 93 => ⟨S512x8x6, .f32⟩
  | 94 => ⟨S_, .f32⟩
  | 95 => ⟨S512x8x6, .f32⟩
  | 96 => ⟨S512x8x6, .f32⟩
  | 97 => ⟨S_, .i32⟩
  | 98 => ⟨S512, .i32⟩
  | 99 => ⟨S512, .i1⟩
  | 100 => ⟨S_, .i32⟩
  | 101 => ⟨S512, .i32⟩
  | 102 => ⟨S512, .i32⟩
  | 103 => ⟨S512, .i32⟩
  | 104 => ⟨S512x1, .i32⟩
  | 105 => ⟨S512, .f32⟩
  | 106 => ⟨S_, .i32⟩
  | 107 => ⟨S512, .i32⟩
  | 108 => ⟨S512, .i1⟩
  | 109 => ⟨S_, .i32⟩
  | 110 => ⟨S512, .i32⟩
  | 111 => ⟨S512, .i32⟩
  | 112 => ⟨S512, .i32⟩
  | 113 => ⟨S512x1, .i32⟩
  | 114 => ⟨S512, .f32⟩
  | 115 => ⟨S512, .f32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512, .i1⟩
  | 125 => ⟨S_, .f32⟩
  | 126 => ⟨S512, .f32⟩
  | 127 => ⟨S512, .f32⟩
  | _ => ⟨S512x6x1024, .f32⟩

abbrev hbmTy0_1 (i : Nat) : BufTy := match i % 128 with
  | 0 => ⟨S_, .f32⟩
  | 1 => ⟨S512, .f32⟩
  | 2 => ⟨S512, .f32⟩
  | 3 => ⟨S_, .f32⟩
  | 4 => ⟨S512, .f32⟩
  | 5 => ⟨S512, .f32⟩
  | 6 => ⟨S_, .f32⟩
  | 7 => ⟨S_, .f32⟩
  | 8 => ⟨S512, .f32⟩
  | 9 => ⟨S512, .f32⟩
  | 10 => ⟨S512x1x1, .f32⟩
  | 11 => ⟨S512x8x6, .f32⟩
  | 12 => ⟨S512x8x6, .f32⟩
  | 13 => ⟨S_, .f32⟩
  | 14 => ⟨S6, .f32⟩
  | 15 => ⟨S_, .f32⟩
  | 16 => ⟨S_, .f32⟩
  | 17 => ⟨S_, .f32⟩
  | 18 => ⟨S_, .i1⟩
  | 19 => ⟨S6, .f32⟩
  | 20 => ⟨S6, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S512x6x1024, .f32⟩

abbrev hbmTy (i : Nat) : BufTy := match i / 128 with
  | 0 => hbmTy0_0 i
  | 1 => hbmTy0_1 i
  | _ => ⟨S512x6x1024, .f32⟩

abbrev bufTy : (tb : Table) → Fin (tcTables nBuf tb) → BufTy
  | .hbm, ⟨i, _⟩ => hbmTy i
  | _, _ => ⟨S512x6x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_c_16 : Ref sig .tc := ⟨.hbm, 97, rfl⟩
abbrev main_v72 : Ref sig .tc := ⟨.hbm, 98, rfl⟩
abbrev main_v73 : Ref sig .tc := ⟨.hbm, 99, rfl⟩
abbrev main_c_17 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_20 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_22 : Ref sig .tc := ⟨.hbm, 125, rfl⟩
abbrev main_v94 : Ref sig .tc := ⟨.hbm, 126, rfl⟩
abbrev main_v95 : Ref sig .tc := ⟨.hbm, 127, rfl⟩
abbrev main_cst_23 : Ref sig .tc := ⟨.hbm, 128, rfl⟩
abbrev main_v96 : Ref sig .tc := ⟨.hbm, 129, rfl⟩
abbrev main_v97 : Ref sig .tc := ⟨.hbm, 130, rfl⟩
abbrev main_cst_24 : Ref sig .tc := ⟨.hbm, 131, rfl⟩
abbrev main_v98 : Ref sig .tc := ⟨.hbm, 132, rfl⟩
abbrev main_v99 : Ref sig .tc := ⟨.hbm, 133, rfl⟩
abbrev main_cst_25 : Ref sig .tc := ⟨.hbm, 134, rfl⟩
abbrev main_call3_v0 : Ref sig .tc := ⟨.hbm, 135, rfl⟩
abbrev main_call3_v1 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_cst_28 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_29 : Ref sig .tc := ⟨.hbm, 149, rfl⟩
abbrev main_v109 : Ref sig .tc := ⟨.hbm, 150, rfl⟩
abbrev main_cst_30 : Ref sig .tc := ⟨.hbm, 151, rfl⟩
abbrev main_v110 : Ref sig .tc := ⟨.hbm, 152, rfl⟩
abbrev main_cst_31 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S64 : S_.BroadcastsInDim S64 (![] : Fin 0 → Fin S64.rank)
  bcast_S512_S512x1_0 : S512.BroadcastsInDim S512x1 (![0] : Fin 1 → Fin S512x1.rank)
  bcast_S512_S512x1x1_0 : S512.BroadcastsInDim S512x1x1 (![0] : Fin 1 → Fin S512x1x1.rank)
  bcast_S512x1x1_S512x6x1024_0_1_2 : S512x1x1.BroadcastsInDim S512x6x1024 (![0, 1, 2] : Fin 3 → Fin S512x6x1024.rank)
  bcast_S_S64x6x1024 : S_.BroadcastsInDim S64x6x1024 (![] : Fin 0 → Fin S64x6x1024.rank)
  bcast_S64_S64x1x1_0 : S64.BroadcastsInDim S64x1x1 (![0] : Fin 1 → Fin S64x1x1.rank)
  bcast_S64x1x1_S64x6x1024_0_1_2 : S64x1x1.BroadcastsInDim S64x6x1024 (![0, 1, 2] : Fin 3 → Fin S64x6x1024.rank)
  reducesTo_S64_S_d0 : S64.ReducesTo [0] S_
  h_S_ : 0 < S_.numel
  bcast_S512x6x1024_S512x1x6x1024_0_2_3 : S512x6x1024.BroadcastsInDim S512x1x6x1024 (![0, 2, 3] : Fin 3 → Fin S512x1x6x1024.rank)
  bcast_S512x1x6x1024_S512x8x6x1024_0_1_2_3 : S512x1x6x1024.BroadcastsInDim S512x8x6x1024 (![0, 1, 2, 3] : Fin 4 → Fin S512x8x6x1024.rank)
  reducesTo_S512x8x6x1024_S512x8x6_d3 : S512x8x6x1024.ReducesTo [3] S512x8x6
  bcast_S_S512x8x6 : S_.BroadcastsInDim S512x8x6 (![] : Fin 0 → Fin S512x8x6.rank)
  bcast_S512x1x1_S512x8x6_0_1_2 : S512x1x1.BroadcastsInDim S512x8x6 (![0, 1, 2] : Fin 3 → Fin S512x8x6.rank)
  reducesTo_S512x8x6_S6_d0_1 : S512x8x6.ReducesTo [0, 1] S6
  bcast_S_S6 : S_.BroadcastsInDim S6 (![] : Fin 0 → Fin S6.rank)
  reducesTo_S6_S_d0 : S6.ReducesTo [0] S_
  scatter_S64_S512x1_S512_n_0_0_1_wf : ScatterDims.WF S64 S512x1 S512 [] [0] [0] 1
  scatter_S64x6x1024_S512x1_S512x6x1024_12_0_0_1_wf : ScatterDims.WF S64x6x1024 S512x1 S512x6x1024 [1, 2] [0] [0] 1
  gather_S64x6x1024_S512x1_S512x6x1024_12_0_n_n_0_1_161024_wf : GatherDims.WF S64x6x1024 S512x1 S512x6x1024 [1, 2] [0] [] [0] [] 1 ![1, 6, 1024]
  gather_S64_S512x1_S512_n_0_n_n_0_1_1_wf : GatherDims.WF S64 S512x1 S512 [] [0] [] [0] [] 1 ![1]

variable [Facts₀]

def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def scatter_S64x6x1024_S512x1_S512x6x1024_12_0_0_1 : ScatterDims S64x6x1024 S512x1 S512x6x1024 where
  updateWindowDims := [1, 2]
  insertedWindowDims := [0]
  scatterDimsToOperandDims := [0]
  indexVectorDim := 1
  wf := scatter_S64x6x1024_S512x1_S512x6x1024_12_0_0_1_wf
def gather_S64x6x1024_S512x1_S512x6x1024_12_0_n_n_0_1_161024 : GatherDims S64x6x1024 S512x1 S512x6x1024 where
  offsetDims := [1, 2]
  collapsedSliceDims := [0]
  operandBatchingDims := []
  startIndicesBatchingDims := []
  startIndexMap := [0]
  indexVectorDim := 1
  sliceSizes := ![1, 6, 1024]
  wf := gather_S64x6x1024_S512x1_S512x6x1024_12_0_n_n_0_1_161024_wf
def gather_S64_S512x1_S512_n_0_n_n_0_1_1 : GatherDims S64 S512x1 S512 where
  offsetDims := []
  collapsedSliceDims := [0]
  operandBatchingDims := []
  startIndicesBatchingDims := []
  startIndexMap := [0]
  indexVectorDim := 1
  sliceSizes := ![1]
  wf := gather_S64_S512x1_S512_n_0_n_n_0_1_1_wf

class Facts : Prop extends Facts₀ where

variable [Facts]
-- ==== Proof.Pieces.lean ====
/-
  What the kernel body leaves behind, case by case, as values.

  The body keeps a running sum in a scratch row of six numbers. At every grid point it computes the point's
  partial sums (one per body part: the weighted hinges of the tile's 128 samples, added up) and adds them to
  the scratch. At the very first point it first clears the scratch; at the very last point it also copies the
  scratch to the output row. So, writing `part` for the point's partial sums and `acc` for what the scratch
  held on entry:
    first point : scratch = 0 + part
    other points: scratch = acc + part
    last point  : scratch = acc + part, and the output row holds the same.
  Here each of these is read off the stores the symbolic run of the body found.
-/
import proofs.«155835_j12326556139945_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that is neither the first nor the last: the scratch ends at what it held plus the point's partial sums. -/
theorem scratch_mid (c : Dev nD) (i : grid0.Coords) (a2 : Memref sig .tc .vmem S128x1x6x1024 .f32) (h2 : a2.IsWhole) (a3 : Memref sig .tc .vmem S128x6x1024 .f32) (h3 : a3.IsWhole) (a4 : Memref sig .tc .vmem S128x6x1024 .f32) (h4 : a4.IsWhole) (a5 : Memref sig .tc .vmem S128x1 .f32) (h5 : a5.IsWhole) (a6 : Memref sig .tc .vmem S1x6 .f32) (h6 : a6.IsWhole) (a7 : Memref sig .tc .vmem S1x6 .f32) (h7 : a7.IsWhole) (hc0 : ¬cond0_0 i) (hc1 : ¬cond0_1 i) (x0 : Vec F S128x1x6x1024 .f32) (x1 : Vec F S128x6x1024 .f32) (x2 : Vec F S128x6x1024 .f32) (x3 : Vec F S128x1 .f32) (xs0 : Vec F S1x6 .f32) :
    sout0_B_0 c i a2 h2 a3 h3 a4 h4 a5 h5 a6 h6 a7 h7 hc0 hc1 x0 x1 x2 x3 xs0 = k0_pay1 xs0 (k0_pay3 x0 x1 x2 x3) := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S128x1x6x1024) hz4, View.ld_unit_zero (S := S128x6x1024) hz3, View.ld_unit_zero (S := S128x1) hz2,
    View.ld_unit_zero (S := S1x6) hz2]

/-- The first point: the scratch is cleared, read back, and ends at zero plus the point's partial sums. -/
theorem scratch_first (c : Dev nD) (i : grid0.Coords) (a2 : Memref sig .tc .vmem S128x1x6x1024 .f32) (h2 : a2.IsWhole) (a3 : Memref sig .tc .vmem S128x6x1024 .f32) (h3 : a3.IsWhole) (a4 : Memref sig .tc .vmem S128x6x1024 .f32) (h4 : a4.IsWhole) (a5 : Memref sig .tc .vmem S128x1 .f32) (h5 : a5.IsWhole) (a6 : Memref sig .tc .vmem S1x6 .f32) (h6 : a6.IsWhole) (a7 : Memref sig .tc .vmem S1x6 .f32) (h7 : a7.IsWhole) (hc0 : cond0_0 i) (hc1 : ¬cond0_1 i) (x0 : Vec F S128x1x6x1024 .f32) (x1 : Vec F S128x6x1024 .f32) (x2 : Vec F S128x6x1024 .f32) (x3 : Vec F S128x1 .f32) :
    sout0_A_0 c i a2 h2 a3 h3 a4 h4 a5 h5 a6 h6 a7 h7 hc0 hc1 x0 x1 x2 x3 = k0_pay1 (k0_pay2 (F := F)) (k0_pay3 x0 x1 x2 x3) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x6) hz2, View.readCov_unit_zero (S := S1x6) _ hz2]
  simp only [View.readAt_eq_ld, h2.read_unread, h3.read_unread, h4.read_unread, h5.read_unread, h7.read_unread,
    View.ld_unit_zero (S := S128x1x6x1024) hz4, View.ld_unit_zero (S := S128x6x1024) hz3, View.ld_unit_zero (S := S128x1) hz2,
    View.ld_unit_zero (S := S1x6) hz2]

/-- The last point, the scratch: as at any later point. -/
theorem scratch_last (c : Dev nD) (i : grid0.Coords) (a2 : Memref sig .tc .vmem S128x1x6x1024 .f32) (h2 : a2.IsWhole) (a3 : Memref sig .tc .vmem S128x6x1024 .f32) (h3 : a3.IsWhole) (a4 : Memref sig .tc .vmem S128x6x1024 .f32) (h4 : a4.IsWhole) (a5 : Memref sig .tc .vmem S128x1 .f32) (h5 : a5.IsWhole) (a6 : Memref sig .tc .vmem S1x6 .f32) (h6 : a6.IsWhole) (a7 : Memref sig .tc .vmem S1x6 .f32) (h7 : a7.IsWhole) (hc0 : ¬cond0_0 i) (hc1 : cond0_1 i) (x0 : Vec F S128x1x6x1024 .f32) (x1 : Vec F S128x6x1024 .f32) (x2 : Vec F S128x6x1024 .f32) (x3 : Vec F S128x1 .f32) (xs0 : Vec F S1x6 .f32) :
    sout0_C_0 c i a2 h2 a3 h3 a4 h4 a5 h5 a6 h6 a7 h7 hc0 hc1 x0 x1 x2 x3 xs0 = k0_pay1 xs0 (k0_pay3 x0 x1 x2 x3) := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S128x1x6x1024) hz4, View.ld_unit_zero (S := S128x6x1024) hz3, View.ld_unit_zero (S := S128x1) hz2,
    View.ld_unit_zero (S := S1x6) hz2]

/-- The last point, the output row: the scratch just written, read back and stored whole. -/
theorem out_last (c : Dev nD) (i : grid0.Coords) (a2 : Memref sig .tc .vmem S128x1x6x1024 .f32) (h2 : a2.IsWhole) (a3 : Memref sig .tc .vmem S128x6x1024 .f32) (h3 : a3.IsWhole) (a4 : Memref sig .tc .vmem S128x6x1024 .f32) (h4 : a4.IsWhole) (a5 : Memref sig .tc .vmem S128x1 .f32) (h5 : a5.IsWhole) (a6 : Memref sig .tc .vmem S1x6 .f32) (h6 : a6.IsWhole) (a7 : Memref sig .tc .vmem S1x6 .f32) (h7 : a7.IsWhole) (hc0 : ¬cond0_0 i) (hc1 : cond0_1 i) (x0 : Vec F S128x1x6x1024 .f32) (x1 : Vec F S128x6x1024 .f32) (x2 : Vec F S128x6x1024 .f32) (x3 : Vec F S128x1 .f32) (xs0 : Vec F S1x6 .f32) :
    out0_C_4 c i a2 h2 a3 h3 a4 h4 a5 h5 a6 h6 a7 h7 hc0 hc1 x0 x1 x2 x3 xs0 = k0_pay1 xs0 (k0_pay3 x0 x1 x2 x3) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S128x1x6x1024) hz4, View.ld_unit_zero (S := S128x6x1024) hz3, View.ld_unit_zero (S := S128x1) hz2,
    View.ld_unit_zero (S := S1x6) hz2, View.readCov_unit_zero (S := S1x6) _ hz2]

end Cert.KernelIdeal.Acc

end
-- ==== Proof.Running.lean ====
/-
  The scratch row after each grid point, in closed form.

  Write part n for the partial sums the body computes at point n (a function of the four input blocks the
  point sees). Reading the cases off one after the other, the scratch after point n is
    run 0       = 0 + part 0
    run (n + 1) = run n + part (n + 1)
  and the output row, written at the last point only, holds run 31. This is proved by induction on the point,
  never by listing the 32 points.
-/
import proofs.«155835_j12326556139945_1_alg».proof.Proof.Pieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The partial sums of grid point `n`: the body's arithmetic on the point's four input blocks. -/
def part (c : Dev nD) (n : ℕ) (h : n < cfg0.N) : FVec F S1x6 .f32 :=
  k0_pay3 (iblk m c 0 ⟨n, h⟩) (iblk m c 1 ⟨n, h⟩) (iblk m c 2 ⟨n, h⟩) (iblk m c 3 ⟨n, h⟩)

/-- The running sum after grid point `n`. -/
def run (c : Dev nD) : (n : ℕ) → n < cfg0.N → Vec F S1x6 .f32
  | 0, h => k0_pay1 (k0_pay2 (F := F)) (part m c 0 h)
  | n + 1, h => k0_pay1 (run c n (Nat.lt_of_succ_lt h)) (part m c (n + 1) h)

/-- After every point the scratch row holds the running sum. -/
theorem scratch_eq (c : Dev nD) : ∀ (n : ℕ) (h : n < cfg0.N), (outsAt0 m c n h).2 = run m c n h
  | 0, h => by
    show (outsAt0 m c (⟨0, h⟩ : Fin cfg0.N).val (⟨0, h⟩ : Fin cfg0.N).isLt).2 = _
    rw [outsAt0_A m c ⟨0, h⟩ rfl (by show ¬(0 % 32 = 31); decide)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    have hN : cfg0.N = 32 := N_0
    have h0 : ¬(⟨n + 1, h⟩ : Fin cfg0.N).val % 32 = 0 := by dsimp only; omega
    show (outsAt0 m c (⟨n + 1, h⟩ : Fin cfg0.N).val (⟨n + 1, h⟩ : Fin cfg0.N).isLt).2 = _
    by_cases h1 : (⟨n + 1, h⟩ : Fin cfg0.N).val % 32 = 31
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show k0_pay1 (outsAt0 m c n _).2 _ = k0_pay1 (run m c n _) _
      rw [scratch_eq c n]
      rfl
    · rw [outsAt0_B m c ⟨n + 1, h⟩ h0 h1]
      dsimp only
      refine (scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show k0_pay1 (outsAt0 m c n _).2 _ = k0_pay1 (run m c n _) _
      rw [scratch_eq c n]
      rfl

/-- At the last point the output row is written with the running sum. -/
theorem out_eq (c : Dev nD) (t : Fin cfg0.N) (ht : t.val % 32 = 31) : (outsAt0 m c t.val t.isLt).1 = run m c t.val t.isLt := by
  have hN : cfg0.N = 32 := N_0
  have h0 : ¬t.val % 32 = 0 := by omega
  obtain ⟨n, hn⟩ := t
  cases n with
  | zero => exact absurd ht (by show ¬(0 % 32 = 31); decide)
  | succ n =>
    rw [outsAt0_C m c ⟨n + 1, hn⟩ h0 ht]
    dsimp only
    refine (out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) _).trans ?_
    show k0_pay1 (outsAt0 m c n _).2 _ = k0_pay1 (run m c n _) _
    rw [scratch_eq m c n]
    rfl

end Cert.KernelIdeal.Acc

end
-- ==== Proof.Result.lean ====
/-
  The kernel's output array after the run.

  The output row (1 x 6) is one block whose index never moves; the pipeline writes it back once, after the last of
  the 32 grid points, and by then the body has copied the running sum into it. So the array ends holding the
  running sum after point 31. The frame run also says what every buffer the later host lines write ends holding,
  in particular the program's result, and that the four arguments end as they were.
-/
import proofs.«155835_j12326556139945_1_alg».proof.Proof.Running
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen

variable {F : FTy → Type} [FloatOps F]
variable (m : (ℓ : Loc nD τ sig) → Buf (Elt F) ℓ) (ρ : Dev nD → PrngReg)

theorem lastLt : 31 < cfg0.N := by rw [show cfg0.N = 32 from N_0]; decide

/-- The last grid point. -/
abbrev tLast : Fin cfg0.N := ⟨31, lastLt⟩

/-- The running sum after the last point, as contents of the output array (its one block IS the array). -/
abbrev total (c : Dev nD) : Buf (Elt F) ((c : Thread nD τ).loc main_v86) := Acc.run m c 31 lastLt

/-- The one write-back, after point 31, writes the running sum: the block at zero offsets is the whole array. -/
theorem flushed_eq (c : Dev nD) (t : Fin cfg0.N) (hf : (cfg0.win 4).flush t = true) :
    (dats m 0 c).flushed 4 t = ((cfg0.win 4).blk t).view.read (Elt F) (total m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, Acc.out_eq m c tLast rfl]
  have hz' : (fun a => win0_4.index tLast a * main_v86.ty.shape.size a) = fun _ => 0 := funext fun a => by fin_cases a <;> decide +kernel
  exact (Memref.read_access_unit_zero (Elt F) main_v86 hz' (fun a => by rw [congrFun hz' a]; simp) (total m c)).symm

/-- So the output array ends holding the running sum after point 31: that point's block covers it. -/
theorem final_out (c : Dev nD) : (dats m 0 c).arrAt 4 cfg0.N = total m c :=
  (dats m 0 c).arrAt_eq_of_cover 4 (total m c) (flushed_eq m c) fun i =>
    ⟨tLast, (flush0_4 tLast).mpr rfl, by
      show i ∈ ((View.whole main_v86).slice (win0_4.rect tLast)).set
      rw [View.set_slice_whole, Rect.mem_set_unit]
      intro a
      have h0 : (i 0 : Nat) < 1 := (i 0).isLt
      have h1 : (i 1 : Nat) < 6 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 6 from by decide +kernel]; omega⟩

/-- The run, read at the program's result: it ends at what the host lines after the region compute from the output
    array and the buffers the region found, and the four arguments end unchanged. -/
theorem run_tail : θ_run defs (onTc (τ := τ) (main (F := F))) ⟨m, fun _ => 0, ρ⟩ fun r => ∀ c : Dev nD,
      r.2.mem ((c.tc : Thread nD τ).loc main_v94) = Pipeline.afterTail₀ cfgs (dats m) 0 (V0 m) [hostOps1, hostOps1_1] c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).2 main_v94 (Pipeline.mem_restRefs_of main_v94 (by decide) (by decide)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Result

end
-- ==== Proof.BodyValue.lean ====
/-
  The body's arithmetic, read one number at a time over the extended reals.

  A grid point sees a block of 128 samples: the generated features g (128 x 1 x 6 x 1024: one copy), the
  originals o and the centres cr (128 x 6 x 1024 each) and the weights w (128 x 1). For row r and part p let
    rowHinge r p = max (sqrt (sum_d (g r p d - cr r p d)^2) - sqrt (sum_d (g r p d - o r p d)^2) + margin) 0 * w r.
  The point's partial sum for part p is the sum of rowHinge r p over the 128 rows. Adding it to the scratch is a
  plain sum, and the cleared scratch holds zero.
-/
import proofs.«155835_j12326556139945_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Body

open Cert.KernelIdeal Cert.KernelIdeal.Gen

/-- One row's weighted hinge, in the block's own coordinates. -/
def rowHinge (g : FVec Ideal S128x1x6x1024 .f32) (o cr : FVec Ideal S128x6x1024 .f32) (w : FVec Ideal S128x1 .f32)
    (r : Fin 128) (p : Fin 6) : EReal :=
  max (Ideal.sqrt (∑ d : Fin 1024, (g (ix4 r (0 : Fin 1) p d) - cr (ix3 r p d)) * (g (ix4 r (0 : Fin 1) p d) - cr (ix3 r p d)))
        - Ideal.sqrt (∑ d : Fin 1024, (g (ix4 r (0 : Fin 1) p d) - o (ix3 r p d)) * (g (ix4 r (0 : Fin 1) p d) - o (ix3 r p d)))
        + Ideal.ofBits .f32 0x3E4CCCCD#32)
      (Ideal.ofBits .f32 0x00000000#32) * w (ix2 r (0 : Fin 1))

/-- Dropping the block's unit copy axis keeps every number where it was: (r, p, d) reads (r, 0, p, d). -/
theorem gen_cast_apply (v : FVec Ideal S128x1x6x1024 .f32) (r : Fin 128) (p : Fin 6) (d : Fin 1024) :
    shapeCast S128x6x1024 v shapeCasts_S128x1x6x1024_S128x6x1024 (ix3 r p d) = v (ix4 r (0 : Fin 1) p d) :=
  shapeCast_apply v _ _ _ (by
    rw [Shape.rowMajor_val_four, Shape.rowMajor_val_three]
    show ((r.val * 1 + 0) * 6 + p.val) * 1024 + d.val = (r.val * 6 + p.val) * 1024 + d.val
    omega)

/-- The sum over the feature axis, at (r, p): the 1024 features of that row and part. -/
theorem feature_sum (v : FVec Ideal S128x6x1024 .f32) (hφ : FKind.Formats .f32)
    (hacc : (0x00000000#32 : BitVec 32) = FKind.add.neutral .f32 hφ) (r : Fin 128) (p : Fin 6) :
    multiReduction .add [2] S128x6 v 0x00000000#32 reduces_S128x6x1024_S128x6 hφ hacc (ix2 r p) = ∑ d : Fin 1024, v (ix3 r p d) :=
  (Ideal.multiReduction_add_single v 0x00000000#32 reduces_S128x6x1024_S128x6 hφ hacc (ix2 r p)).trans
    (Finset.sum_congr rfl fun d _ => congrArg v (funext fun a => Fin.ext (by
      match a with | ⟨0, _⟩ => rfl | ⟨1, _⟩ => rfl | ⟨2, _⟩ => rfl)))

/-- The sum over the tile's rows, at part p: the 128 rows of that part. -/
theorem tile_sum (v : FVec Ideal S128x6 .f32) (hφ : FKind.Formats .f32)
    (hacc : (0x00000000#32 : BitVec 32) = FKind.add.neutral .f32 hφ) (p : Fin 6) :
    multiReduction .add [0] S6 v 0x00000000#32 reduces_S128x6_S6 hφ hacc (ix1 p) = ∑ r : Fin 128, v (ix2 r p) :=
  (Ideal.multiReduction_add_single v 0x00000000#32 reduces_S128x6_S6 hφ hacc (ix1 p)).trans
    (Finset.sum_congr rfl fun r _ => congrArg v (funext fun a => Fin.ext (by
      match a with | ⟨0, _⟩ => rfl | ⟨1, _⟩ => rfl)))

/-- The weight column spread over the six parts: (r, p) reads (r, 0). -/
theorem weight_apply (v : FVec Ideal S128x1 .f32) (r : Fin 128) (p : Fin 6) :
    broadcastTo S128x6 v broadcasts_S128x1_S128x6 (ix2 r p) = v (ix2 r (0 : Fin 1)) :=
  broadcastTo_apply v _ _ _ (fun a => match a with
    | ⟨0, _⟩ => by show r.val = if (128 : Nat) = 1 then 0 else r.val; rw [if_neg (by decide)]
    | ⟨1, _⟩ => by show 0 = if (1 : Nat) = 1 then 0 else p.val; rw [if_pos rfl])

theorem sqrt_apply {s : Shape} (v : FVec Ideal s .f32) (i : s.Idx) : sqrt v i = Ideal.sqrt (v i) := rfl

/-- The squared distance of row r, part p, to a reference block: the feature sum of the squared differences. -/
theorem sq_dist (x0 : FVec Ideal S128x1x6x1024 .f32) (y : FVec Ideal S128x6x1024 .f32) (hφ : FKind.Formats .f32)
    (hacc : (0x00000000#32 : BitVec 32) = FKind.add.neutral .f32 hφ) (r : Fin 128) (p : Fin 6) :
    multiReduction .add [2] S128x6
        (mulf (subf (shapeCast S128x6x1024 x0 shapeCasts_S128x1x6x1024_S128x6x1024) y)
          (subf (shapeCast S128x6x1024 x0 shapeCasts_S128x1x6x1024_S128x6x1024) y))
        0x00000000#32 reduces_S128x6x1024_S128x6 hφ hacc (ix2 r p)
      = ∑ d : Fin 1024, (x0 (ix4 r (0 : Fin 1) p d) - y (ix3 r p d)) * (x0 (ix4 r (0 : Fin 1) p d) - y (ix3 r p d)) :=
  (feature_sum _ hφ hacc r p).trans (Finset.sum_congr rfl fun d _ => by
    rw [mulf_apply, subf_apply, gen_cast_apply])

/-- One row's term of the tile sum, as the body computes it, is that row's weighted hinge. -/
theorem row_term (x0 : FVec Ideal S128x1x6x1024 .f32) (x1 x2 : FVec Ideal S128x6x1024 .f32) (x3 : FVec Ideal S128x1 .f32)
    (hφ : FKind.Formats .f32) (hacc : (0x00000000#32 : BitVec 32) = FKind.add.neutral .f32 hφ) (r : Fin 128) (p : Fin 6) :
    max (Ideal.sqrt (multiReduction .add [2] S128x6
            (mulf (subf (shapeCast S128x6x1024 x0 shapeCasts_S128x1x6x1024_S128x6x1024) x2)
              (subf (shapeCast S128x6x1024 x0 shapeCasts_S128x1x6x1024_S128x6x1024) x2))
            0x00000000#32 reduces_S128x6x1024_S128x6 hφ hacc (ix2 r p))
          - Ideal.sqrt (multiReduction .add [2] S128x6
            (mulf (subf (shapeCast S128x6x1024 x0 shapeCasts_S128x1x6x1024_S128x6x1024) x1)
              (subf (shapeCast S128x6x1024 x0 shapeCasts_S128x1x6x1024_S128x6x1024) x1))
            0x00000000#32 reduces_S128x6x1024_S128x6 hφ hacc (ix2 r p))
          + FloatOps.ofBits (F := Ideal) .f32 0x3E4CCCCD#32)
        (FloatOps.ofBits (F := Ideal) .f32 0x00000000#32) * x3 (ix2 r (0 : Fin 1))
      = rowHinge x0 x1 x2 x3 r p := by
  rw [sq_dist x0 x2 hφ hacc r p, sq_dist x0 x1 hφ hacc r p]
  rfl

/-- The point's partial sum for part p: the 128 rows' weighted hinges, added up. -/
theorem pay3_apply (x0 : FVec Ideal S128x1x6x1024 .f32) (x1 x2 : FVec Ideal S128x6x1024 .f32) (x3 : FVec Ideal S128x1 .f32) (p : Fin 6) :
    k0_pay3 (F := Ideal) x0 x1 x2 x3 (ix2 (0 : Fin 1) p) = ∑ r : Fin 128, rowHinge x0 x1 x2 x3 r p := by
  unfold k0_pay3
  dsimp only
  refine (shapeCast_a_1a_apply _ shapeCasts_S6_S1x6 0 p).trans ?_
  refine (tile_sum _ _ _ p).trans ?_
  refine Finset.sum_congr rfl fun r _ => ?_
  simp only [mulf_apply, maximumf_apply, addf_apply, subf_apply, broadcast_apply, shapeCast_self, weight_apply, sqrt_apply]
  exact row_term x0 x1 x2 x3 _ _ r p

/-- Adding to the scratch is adding, number by number. -/
theorem pay1_apply (a : Vec Ideal S1x6 .f32) (b : FVec Ideal S1x6 .f32) (i : S1x6.Idx) :
    k0_pay1 (F := Ideal) a b i = a i + b i := by
  unfold k0_pay1
  rw [shapeCast_self]
  rfl

/-- The cleared scratch holds zero. -/
theorem pay2_apply (i : S1x6.Idx) : (k0_pay2 (F := Ideal)) i = 0 := by
  unfold k0_pay2
  rw [shapeCast_self]
  exact Ideal.ofBits_zero_f32

end Cert.KernelIdeal.Body

end
-- ==== Proof.Blocks.lean ====
/-
  Where a grid point's blocks sit in the whole arrays.

  Point t of the 4 x 8 grid works on tile t / 8 (samples 128 * (t / 8) … 128 * (t / 8) + 127) and on copy t % 8.
  So row r of its blocks is sample b = 128 * (t / 8) + r: the generated-feature block reads g (b, t % 8, p, d),
  the original and centre blocks read (b, p, d), the weight block reads (b, 0).
-/
import proofs.«155835_j12326556139945_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The generated-feature window's block index at point t: (t / 8, t % 8, 0, 0). -/
theorem idx_gen : ∀ t : Fin cfg0.N, win0_0.index t 0 = t.val / 8 ∧ win0_0.index t 1 = t.val % 8 ∧ win0_0.index t 2 = 0 ∧ win0_0.index t 3 = 0 :=
  (by decide +kernel : ∀ t : Fin grid0.N, win0_0.index t 0 = t.val / 8 ∧ win0_0.index t 1 = t.val % 8 ∧ win0_0.index t 2 = 0 ∧ win0_0.index t 3 = 0)
/-- The originals' window: (t / 8, 0, 0). -/
theorem idx_orig : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
/-- The centres' window: (t / 8, 0, 0). -/
theorem idx_cross : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
/-- The weights' window: (t / 8, 0). -/
theorem idx_w : ∀ t : Fin cfg0.N, win0_3.index t 0 = t.val / 8 ∧ win0_3.index t 1 = 0 :=
  (by decide +kernel : ∀ t : Fin grid0.N, win0_3.index t 0 = t.val / 8 ∧ win0_3.index t 1 = 0)

/-- The generated-feature block at point t, row r: sample b = 128 * (t / 8) + r, copy k = t % 8. -/
theorem gen_block (c : Dev nD) (t : Fin cfg0.N) (r : Fin 128) (p : Fin 6) (d : Fin 1024) (b : Fin 512) (k : Fin 8)
    (hb : b.val = 128 * (t.val / 8) + r.val) (hk : k.val = t.val % 8) :
    (iblk m c 0 t : Vec F S128x1x6x1024 .f32) (ix4 r (0 : Fin 1) p d) = (V m c main_arg1 : Vec F S512x8x6x1024 .f32) (ix4 b k p d) := by
  unfold iblk
  rw [View.read_apply]
  refine congrArg (V m c main_arg1) (funext fun a => Fin.ext ?_)
  have hi := idx_gen t
  match a with
  | ⟨0, _⟩ => show win0_0.index t 0 * 128 + 1 * r.val = b.val; rw [hi.1, hb]; omega
  | ⟨1, _⟩ => show win0_0.index t 1 * 1 + 1 * 0 = k.val; rw [hi.2.1, hk]; omega
  | ⟨2, _⟩ => show win0_0.index t 2 * 6 + 1 * p.val = p.val; rw [hi.2.2.1]; omega
  | ⟨3, _⟩ => show win0_0.index t 3 * 1024 + 1 * d.val = d.val; rw [hi.2.2.2]; omega

/-- The originals' block at point t, row r: sample b. -/
theorem orig_block (c : Dev nD) (t : Fin cfg0.N) (r : Fin 128) (p : Fin 6) (d : Fin 1024) (b : Fin 512)
    (hb : b.val = 128 * (t.val / 8) + r.val) :
    (iblk m c 1 t : Vec F S128x6x1024 .f32) (ix3 r p d) = (V m c main_arg0 : Vec F S512x6x1024 .f32) (ix3 b p d) := by
  unfold iblk
  rw [View.read_apply]
  refine congrArg (V m c main_arg0) (funext fun a => Fin.ext ?_)
  have hi := idx_orig t
  match a with
  | ⟨0, _⟩ => show win0_1.index t 0 * 128 + 1 * r.val = b.val; rw [hi.1, hb]; omega
  | ⟨1, _⟩ => show win0_1.index t 1 * 6 + 1 * p.val = p.val; rw [hi.2.1]; omega
  | ⟨2, _⟩ => show win0_1.index t 2 * 1024 + 1 * d.val = d.val; rw [hi.2.2]; omega

/-- The centres' block at point t, row r: sample b. -/
theorem cross_block (c : Dev nD) (t : Fin cfg0.N) (r : Fin 128) (p : Fin 6) (d : Fin 1024) (b : Fin 512)
    (hb : b.val = 128 * (t.val / 8) + r.val) :
    (iblk m c 2 t : Vec F S128x6x1024 .f32) (ix3 r p d) = (V m c main_v55 : Vec F S512x6x1024 .f32) (ix3 b p d) := by
  unfold iblk
  rw [View.read_apply]
  refine congrArg (V m c main_v55) (funext fun a => Fin.ext ?_)
  have hi := idx_cross t
  match a with
  | ⟨0, _⟩ => show win0_2.index t 0 * 128 + 1 * r.val = b.val; rw [hi.1, hb]; omega
  | ⟨1, _⟩ => show win0_2.index t 1 * 6 + 1 * p.val = p.val; rw [hi.2.1]; omega
  | ⟨2, _⟩ => show win0_2.index t 2 * 1024 + 1 * d.val = d.val; rw [hi.2.2]; omega

/-- The weights' block at point t, row r: sample b. -/
theorem w_block (c : Dev nD) (t : Fin cfg0.N) (r : Fin 128) (b : Fin 512)
    (hb : b.val = 128 * (t.val / 8) + r.val) :
    (iblk m c 3 t : Vec F S128x1 .f32) (ix2 r (0 : Fin 1)) = (V m c main_v85 : Vec F S512x1 .f32) (ix2 b (0 : Fin 1)) := by
  unfold iblk
  rw [View.read_apply]
  refine congrArg (V m c main_v85) (funext fun a => Fin.ext ?_)
  have hi := idx_w t
  match a with
  | ⟨0, _⟩ => show win0_3.index t 0 * 128 + 1 * r.val = b.val; rw [hi.1, hb]; omega
  | ⟨1, _⟩ => show win0_3.index t 1 * 1 + 1 * 0 = 0; rw [hi.2]

end Cert.KernelIdeal.Blocks

end
-- ==== Proof.SumTiles.lean ====
/-
  One finite sum, grouped two ways. The batch axis of 512 samples is cut into 4 tiles of 128 rows, and the
  grid visits (tile i, copy k) at the point t = 8 * i + k, t = 0 … 31. Summing first over the rows of a tile
  and then over the 32 points is the same as summing over all 512 samples and all 8 copies: every pair
  (b, k) is met exactly once, at the point 8 * (b / 128) + k and the row b % 128. Only commutativity and
  associativity of the sum are used, so the law holds in any commutative additive monoid, the extended
  reals among them.
-/
import Mathlib.Algebra.BigOperators.Fin
import Mathlib.Algebra.BigOperators.Group.Finset.Basic
import Mathlib.Logic.Equiv.Fin.Basic

namespace Cert.Tiles

/-- Sample `128 * i + r`: row `r` of tile `i`. -/
def sample (i : Fin 4) (r : Fin 128) : Fin 512 := ⟨128 * i.val + r.val, by have := i.isLt; have := r.isLt; omega⟩

/-- The tile the grid point `t` works on: `t / 8`. -/
def tileOf (t : Fin 32) : Fin 4 := ⟨t.val / 8, by have := t.isLt; omega⟩

/-- The copy the grid point `t` works on: `t % 8`. -/
def copyOf (t : Fin 32) : Fin 8 := ⟨t.val % 8, by have := t.isLt; omega⟩

/-- The 32 grid points are the pairs (tile, copy), each once. -/
def pointEquiv : Fin 32 ≃ Fin 4 × Fin 8 where
  toFun t := (tileOf t, copyOf t)
  invFun x := ⟨8 * x.1.val + x.2.val, by have := x.1.isLt; have := x.2.isLt; omega⟩
  left_inv t := Fin.ext (by simp only [tileOf, copyOf]; omega)
  right_inv x := by
    have h1 := x.1.isLt; have h2 := x.2.isLt
    refine Prod.ext (Fin.ext ?_) (Fin.ext ?_)
    · simp only [tileOf]; omega
    · simp only [copyOf]; omega

/-- The 512 samples are the pairs (tile, row), each once. -/
def sampleEquiv : Fin 4 × Fin 128 ≃ Fin 512 where
  toFun x := sample x.1 x.2
  invFun b := (⟨b.val / 128, by have := b.isLt; omega⟩, ⟨b.val % 128, by have := b.isLt; omega⟩)
  left_inv x := by
    have h1 := x.1.isLt; have h2 := x.2.isLt
    refine Prod.ext (Fin.ext ?_) (Fin.ext ?_)
    · simp only [sample]; omega
    · simp only [sample]; omega
  right_inv b := Fin.ext (by simp only [sample]; omega)

/-- Tile by tile and point by point, or sample by sample and copy by copy: the same sum. -/
theorem sum_points_rows {M : Type*} [AddCommMonoid M] (f : Fin 512 → Fin 8 → M) :
    ∑ t : Fin 32, ∑ r : Fin 128, f (sample (tileOf t) r) (copyOf t) = ∑ b : Fin 512, ∑ k : Fin 8, f b k := by
  have e1 : ∑ t : Fin 32, ∑ r : Fin 128, f (sample (tileOf t) r) (copyOf t)
      = ∑ x : Fin 4 × Fin 8, ∑ r : Fin 128, f (sample x.1 r) x.2 :=
    Fintype.sum_equiv pointEquiv _ _ (fun _ => rfl)
  have e2 : ∑ b : Fin 512, ∑ k : Fin 8, f b k = ∑ x : Fin 4 × Fin 128, ∑ k : Fin 8, f (sample x.1 x.2) k :=
    (Fintype.sum_equiv sampleEquiv _ _ (fun _ => rfl)).symm
  rw [e1, e2, Fintype.sum_prod_type, Fintype.sum_prod_type]
  refine Finset.sum_congr rfl fun i _ => ?_
  exact Finset.sum_comm

end Cert.Tiles
-- ==== Proof.Spec.lean ====
/-
  The mathematics both programs compute, stated once over the extended reals.

  For a sample b (of 512), a generated copy k (of 8) and a body part p (of 6) let
    pull b k p = sqrt (sum over the 1024 features d of (g b k p d - cross b p d)^2)
    push b k p = sqrt (sum over d of (g b k p d - orig b p d)^2)
  the distances of the generated feature to the cross-modality centre and to the original feature, and
    hinge b k p = max (pull b k p - push b k p + margin) 0 * w b
  the weighted hinge. The part loss is the sum of the hinges over all samples and all copies:
    partLoss p = sum over b and k of hinge b k p.
  The squares are written as products and the literals are kept as their bit patterns: both programs
  print the same words, so they are never evaluated.
-/
import Idealize.ShloMosaic.PureOps.Ideal
import Idealize.ShloMosaic.Lib.ValueIdx

noncomputable section

namespace Cert.Spec

open Idealize.ShloMosaic Idealize.ShloMosaic.ValueIdx

/-- The squared distance over the feature axis between row (b, k, p) of the generated features and row (b, p) of a
    reference array (the centre, or the original). -/
def sqDist (g : (⟨4, ![512, 8, 6, 1024]⟩ : Shape).Idx → EReal) (o : (⟨3, ![512, 6, 1024]⟩ : Shape).Idx → EReal)
    (b : Fin 512) (k : Fin 8) (p : Fin 6) : EReal :=
  ∑ d : Fin 1024, (g (ix4 b k p d) - o (ix3 b p d)) * (g (ix4 b k p d) - o (ix3 b p d))

/-- The weighted hinge of one (sample, copy, part). -/
def hinge (g : (⟨4, ![512, 8, 6, 1024]⟩ : Shape).Idx → EReal) (orig cross : (⟨3, ![512, 6, 1024]⟩ : Shape).Idx → EReal)
    (w : Fin 512 → EReal) (b : Fin 512) (k : Fin 8) (p : Fin 6) : EReal :=
  max (Ideal.sqrt (sqDist g cross b k p) - Ideal.sqrt (sqDist g orig b k p) + Ideal.ofBits .f32 0x3E4CCCCD#32)
      (Ideal.ofBits .f32 0x00000000#32) * w b

/-- The part loss: every sample's and every copy's hinge, summed. -/
def partLoss (g : (⟨4, ![512, 8, 6, 1024]⟩ : Shape).Idx → EReal) (orig cross : (⟨3, ![512, 6, 1024]⟩ : Shape).Idx → EReal)
    (w : Fin 512 → EReal) (p : Fin 6) : EReal :=
  ∑ b : Fin 512, ∑ k : Fin 8, hinge g orig cross w b k p

end Cert.Spec

end
-- ==== Proof.KLoss.lean ====
/-
  The kernel's output row holds the specification's part losses.

  The running sum after the last point is the sum, over the 32 grid points, of the points' partial sums; a point's
  partial sum for part p is the sum over its 128 rows of the row hinges; row r of point t is sample
  128 * (t / 8) + r, copy t % 8, read from the whole arrays. Grouping the 32 x 128 terms by sample and copy
  instead of by point and row gives the part loss.
-/
import proofs.«155835_j12326556139945_1_alg».proof.Proof.Result
import proofs.«155835_j12326556139945_1_alg».proof.Proof.BodyValue
import proofs.«155835_j12326556139945_1_alg».proof.Proof.Blocks
import proofs.«155835_j12326556139945_1_alg».proof.Proof.SumTiles
import proofs.«155835_j12326556139945_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen

/-- A row hinge over blocks that read the whole arrays at sample b and copy k is the specification's hinge there. -/
theorem rowHinge_eq (g : FVec Ideal S128x1x6x1024 .f32) (o cr : FVec Ideal S128x6x1024 .f32) (w : FVec Ideal S128x1 .f32)
    (G : (⟨4, ![512, 8, 6, 1024]⟩ : Shape).Idx → EReal) (O CR : (⟨3, ![512, 6, 1024]⟩ : Shape).Idx → EReal) (W : Fin 512 → EReal)
    (r : Fin 128) (p : Fin 6) (b : Fin 512) (k : Fin 8)
    (hg : ∀ d : Fin 1024, g (ix4 r (0 : Fin 1) p d) = G (ix4 b k p d))
    (ho : ∀ d : Fin 1024, o (ix3 r p d) = O (ix3 b p d))
    (hcr : ∀ d : Fin 1024, cr (ix3 r p d) = CR (ix3 b p d))
    (hw : w (ix2 r (0 : Fin 1)) = W b) :
    Body.rowHinge g o cr w r p = Cert.Spec.hinge G O CR W b k p := by
  unfold Body.rowHinge Cert.Spec.hinge Cert.Spec.sqDist
  simp only [hg, ho, hcr, hw]

variable (m : (ℓ : Loc nD τ sig) → Buf (Elt Ideal) ℓ)

/-- The weight of sample b, read off the weight column. -/
abbrev weightOf (c : Dev nD) : Fin 512 → EReal := fun b => (V m c main_v85 : Vec Ideal S512x1 .f32) (ix2 b (0 : Fin 1))

/-- The running sum after point n is the sum of the partial sums of the points 0 … n. -/
theorem run_sum (c : Dev nD) : ∀ (n : ℕ) (h : n < cfg0.N) (p : Fin 6),
    Acc.run m c n h (ix2 (0 : Fin 1) p) = ∑ t : Fin (n + 1), Acc.part m c t.val (lt_of_lt_of_le t.isLt h) (ix2 (0 : Fin 1) p)
  | 0, h, p => by
    show k0_pay1 (F := Ideal) (k0_pay2 (F := Ideal)) (Acc.part m c 0 h) (ix2 (0 : Fin 1) p) = _
    rw [Body.pay1_apply, Body.pay2_apply, zero_add, Fin.sum_univ_one]
    rfl
  | n + 1, h, p => by
    show k0_pay1 (F := Ideal) (Acc.run m c n (Nat.lt_of_succ_lt h)) (Acc.part m c (n + 1) h) (ix2 (0 : Fin 1) p) = _
    rw [Body.pay1_apply, Fin.sum_univ_castSucc, run_sum c n (Nat.lt_of_succ_lt h) p]
    rfl

/-- The partial sum of point t for part p: the hinges of the tile's 128 samples at the point's copy. -/
theorem part_apply (c : Dev nD) (t : Fin 32) (h : t.val < cfg0.N) (p : Fin 6) :
    Acc.part m c t.val h (ix2 (0 : Fin 1) p)
      = ∑ r : Fin 128, Cert.Spec.hinge (V m c main_arg1) (V m c main_arg0) (V m c main_v55) (weightOf m c)
          (Cert.Tiles.sample (Cert.Tiles.tileOf t) r) (Cert.Tiles.copyOf t) p := by
  refine (Body.pay3_apply (iblk m c 0 ⟨t.val, h⟩) (iblk m c 1 ⟨t.val, h⟩) (iblk m c 2 ⟨t.val, h⟩) (iblk m c 3 ⟨t.val, h⟩) p).trans ?_
  refine Finset.sum_congr rfl fun r _ => ?_
  exact rowHinge_eq (iblk m c 0 ⟨t.val, h⟩) (iblk m c 1 ⟨t.val, h⟩) (iblk m c 2 ⟨t.val, h⟩) (iblk m c 3 ⟨t.val, h⟩)
    (V m c main_arg1) (V m c main_arg0) (V m c main_v55) (weightOf m c) r p
    (Cert.Tiles.sample (Cert.Tiles.tileOf t) r) (Cert.Tiles.copyOf t)
    (fun d => Blocks.gen_block m c ⟨t.val, h⟩ r p d (Cert.Tiles.sample (Cert.Tiles.tileOf t) r) (Cert.Tiles.copyOf t) rfl rfl)
    (fun d => Blocks.orig_block m c ⟨t.val, h⟩ r p d (Cert.Tiles.sample (Cert.Tiles.tileOf t) r) rfl)
    (fun d => Blocks.cross_block m c ⟨t.val, h⟩ r p d (Cert.Tiles.sample (Cert.Tiles.tileOf t) r) rfl)
    (Blocks.w_block m c ⟨t.val, h⟩ r (Cert.Tiles.sample (Cert.Tiles.tileOf t) r) rfl)

/-- The output row after the run, at part p: the part loss over the arrays the region found. -/
theorem total_apply (c : Dev nD) (p : Fin 6) :
    Result.total m c (ix2 (0 : Fin 1) p)
      = Cert.Spec.partLoss (V m c main_arg1) (V m c main_arg0) (V m c main_v55) (weightOf m c) p := by
  show Acc.run m c 31 Result.lastLt (ix2 (0 : Fin 1) p) = _
  rw [run_sum m c 31 Result.lastLt p]
  unfold Cert.Spec.partLoss
  rw [← Cert.Tiles.sum_points_rows (fun b k => Cert.Spec.hinge (V m c main_arg1) (V m c main_arg0) (V m c main_v55) (weightOf m c) b k p)]
  exact Finset.sum_congr rfl fun t _ => part_apply m c t _ p

end Cert.KernelIdeal.Loss

end
-- ==== Proof.Shared.lean ====
/-
  The host lines both programs share.

  Before the kernel runs, the program computes from the arguments the per-identity modality counts and centres,
  the cross-modality centre of every sample (`cross`), the per-sample weight (`w`) and the number of identities
  seen in both modalities. The reference computes the very same values by the very same operations, so each
  buffer the kernel's region finds is, operation for operation, the reference's stage of that buffer. After the
  kernel, both programs divide the six part losses by the identity count (at least one), average them, and
  return zero when no identity was seen in both modalities: the same closing lines on both sides.
-/
import proofs.«155835_j12326556139945_1_alg».proof.Proof.Gen.KernelIdeal.Frame
import proofs.«155835_j12326556139945_1_alg».proof.Proof.RefReadP
import Idealize.ShloMosaic.Lib.StableHlo.Run

set_option maxRecDepth 16384

noncomputable section

open Idealize.ShloMosaic Idealize.ShloMosaic.TcCoe Idealize.SL.Sem Idealize.ShloMosaic.StableHlo

/-! ## The reference's closing lines as one function of the part losses -/

namespace Cert.ReferenceIdeal.Closing

open Cert.ReferenceIdeal Cert.ReferenceIdeal.Gen Cert.ReferenceIdeal.ReadP

variable {F : FTy → Type} [FloatOps F]

/-- From the six part losses and the two integer arguments: each loss over the identity count (at least one), their
    mean, or zero when no identity has both modalities. -/
def closing (loss : (⟨S6, .f32⟩ : BufTy).Contents (Elt F)) (x2 x3 : (⟨S512, .i32⟩ : BufTy).Contents (Elt F)) :
    (⟨S_, .f32⟩ : BufTy).Contents (Elt F) :=
  select (val_main_v106 (F := F) x2 x3)
    (Host.divf (Host.reduceAdd (Host.divf loss (val_main_v107 (F := F) x2 x3)) (val_main_cst_29 (F := F)) reducesTo_S6_S_d0 h_S_)
      (val_main_cst_30 (F := F)))
    (val_main_cst_31 (F := F))

/-- The reference's result is its closing lines applied to its part losses. -/
theorem result_eq (x0 : (⟨S512x6x1024, .f32⟩ : BufTy).Contents (Elt F)) (x1 : (⟨S512x8x6x1024, .f32⟩ : BufTy).Contents (Elt F))
    (x2 x3 : (⟨S512, .i32⟩ : BufTy).Contents (Elt F)) :
    val_main_v111 (F := F) x0 x1 x2 x3 = closing (val_main_v104 (F := F) x0 x1 x2 x3) x2 x3 := rfl

end Cert.ReferenceIdeal.Closing

/-! ## What the kernel's region finds, and what its closing lines compute -/

namespace Cert.KernelIdeal.Shared

open Cert.KernelIdeal Cert.KernelIdeal.Gen

variable {F : FTy → Type} [FloatOps F]
variable (m : (ℓ : Loc nD τ sig) → Buf (Elt F) ℓ)

/-- The centre array the region finds is the reference's stage of it. -/
theorem cross_eq (c : Dev nD) :
    V m c main_v55 = Cert.ReferenceIdeal.ReadP.val_main_v55 (F := F) (m ((c.tc : Thread nD τ).loc main_arg0))
      (m ((c.tc : Thread nD τ).loc main_arg2)) (m ((c.tc : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- The weight column the region finds is the reference's weight, one per sample, stood up as a column. -/
theorem weight_eq (c : Dev nD) :
    V m c main_v85 = broadcastInDim S512x1 ![0] bcast_S512_S512x1_0
      (Cert.ReferenceIdeal.ReadP.val_main_v100 (F := F) (m ((c.tc : Thread nD τ).loc main_arg2)) (m ((c.tc : Thread nD τ).loc main_arg3))) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- The identity count the region finds is the reference's stage of it. -/
theorem count_eq (c : Dev nD) :
    V m c main_v39 = Cert.ReferenceIdeal.ReadP.val_main_v39 (F := F) (m ((c.tc : Thread nD τ).loc main_arg2)) (m ((c.tc : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- The program's result: the reference's closing lines applied to the output array, taken as six part losses. -/
theorem closing_eq (c : Dev nD) :
    Pipeline.afterTail₀ cfgs (dats m) 0 (V0 m) [hostOps1, hostOps1_1] c main_v94
      = Cert.ReferenceIdeal.Closing.closing (shapeCast S6 ((dats m 0 c).arrAt 4 cfg0.N) shapeCasts_S1x6_S6)
          (m ((c.tc : Thread nD τ).loc main_arg2)) (m ((c.tc : Thread nD τ).loc main_arg3)) := by
  unfold Pipeline.afterTail₀
  simp only [hostOps1, hostOps1_1, List.flatten_cons, List.flatten_nil, List.append_nil, List.cons_append, List.nil_append]
  after_results_simp
  have e39 : Pipeline.withArrays (cfgs 0).spec c (V0 m c) (fun w => (dats m 0 c).arrAt w (cfgs 0).N) (Proc.devRef .tc main_v39)
      = Cert.ReferenceIdeal.ReadP.val_main_v39 (F := F) (m ((c.tc : Thread nD τ).loc main_arg2)) (m ((c.tc : Thread nD τ).loc main_arg3)) :=
    (Pipeline.withArrays_of_ne _ c (V0 m c) _ main_v39 (by exact (by decide : ∀ w, Pipeline.arrRef spec0 w ≠ main_v39))).trans (count_eq m c)
  have e86 : Pipeline.withArrays (cfgs 0).spec c (V0 m c) (fun w => (dats m 0 c).arrAt w (cfgs 0).N) (Proc.devRef .tc main_v86)
      = (dats m 0 c).arrAt 4 cfg0.N :=
    Pipeline.withArrays_arr spec0 launch0.win.arr_inj c _ _ 4
  rw [e39, e86]
  rfl

end Cert.KernelIdeal.Shared

end
-- ==== Proof.RefLoss.lean ====
/-
  The reference's part losses are the specification's.

  The reference spreads the centres and the originals over the eight copies, takes the two distances of every
  (sample, copy, part), the hinge, the weight, and sums over samples and copies at once. Read one number at a
  time this is the specification's part loss: its sum over the two axes is the double sum over samples and
  copies (the indices that keep part p are exactly the (b, k, p)), the spread arrays read the centre and the
  original of sample b, and a sum started from zero is the sum.
-/
import proofs.«155835_j12326556139945_1_alg».proof.Proof.RefReadP
import proofs.«155835_j12326556139945_1_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.Loss

open Cert.ReferenceIdeal Cert.ReferenceIdeal.Gen Cert.ReferenceIdeal.ReadP

/-- A sum over the sample and copy axes of a 512 x 8 x 6 array, at part p: the double sum over b and k of the
    array at (b, k, p), after the initial value. -/
theorem sum_samples_copies (y : S512x8x6.Idx → EReal) (init : EReal) (p : Fin 6) :
    Ideal.hostReduceAdd reducesTo_S512x8x6_S6_d0_1 y init (ix1 p) = init + ∑ b : Fin 512, ∑ k : Fin 8, y (ix3 b k p) := by
  unfold Ideal.hostReduceAdd
  refine congrArg (init + ·) ?_
  rw [← Fintype.sum_prod_type' (f := fun (b : Fin 512) (k : Fin 8) => y (ix3 b k p))]
  refine Finset.sum_nbij' (fun i => ((i 0, i 1) : Fin 512 × Fin 8)) (fun x => ix3 x.1 x.2 p) ?_ ?_ ?_ ?_ ?_
  · intro i _; exact Finset.mem_univ _
  · intro x _
    refine Finset.mem_filter.2 ⟨Finset.mem_univ _, funext fun a => Fin.ext ?_⟩
    match a with | ⟨0, _⟩ => rfl
  · intro i hi
    have hj := (Finset.mem_filter.1 hi).2
    have h2 : (i 2).val = p.val := congrArg (fun f : S6.Idx => (f 0).val) hj
    funext a
    match a with
    | ⟨0, _⟩ => rfl
    | ⟨1, _⟩ => rfl
    | ⟨2, _⟩ => exact Fin.ext h2.symm
  · intro x _; rfl
  · intro i hi
    have hj := (Finset.mem_filter.1 hi).2
    have h2 : (i 2).val = p.val := congrArg (fun f : S6.Idx => (f 0).val) hj
    refine congrArg y (funext fun a => ?_)
    match a with
    | ⟨0, _⟩ => rfl
    | ⟨1, _⟩ => rfl
    | ⟨2, _⟩ => exact Fin.ext h2

/-- The feature sum's index at (b, k, p), feature d. -/
theorem idx_feature (b : Fin 512) (k : Fin 8) (p : Fin 6) (d : Fin 1024) : idx_main_v60 (ix3 b k p) d = ix4 b k p d :=
  funext fun a => by match a with | ⟨0, _⟩ => rfl | ⟨1, _⟩ => rfl | ⟨2, _⟩ => rfl | ⟨3, _⟩ => rfl
theorem idx_feature' (b : Fin 512) (k : Fin 8) (p : Fin 6) (d : Fin 1024) : idx_main_v66 (ix3 b k p) d = ix4 b k p d :=
  funext fun a => by match a with | ⟨0, _⟩ => rfl | ⟨1, _⟩ => rfl | ⟨2, _⟩ => rfl | ⟨3, _⟩ => rfl
/-- Spread over the copies, (b, k, p, d) reads (b, p, d). -/
theorem idx_spread (b : Fin 512) (k : Fin 8) (p : Fin 6) (d : Fin 1024) : idx_main_v56 (idx_main_v57 (ix4 b k p d)) = ix3 b p d :=
  funext fun a => by match a with | ⟨0, _⟩ => rfl | ⟨1, _⟩ => rfl | ⟨2, _⟩ => rfl
theorem idx_spread' (b : Fin 512) (k : Fin 8) (p : Fin 6) (d : Fin 1024) : idx_main_v62 (idx_main_v63 (ix4 b k p d)) = ix3 b p d :=
  funext fun a => by match a with | ⟨0, _⟩ => rfl | ⟨1, _⟩ => rfl | ⟨2, _⟩ => rfl
/-- The weight spread over copies and parts, (b, k, p) reads b. -/
theorem idx_weight (b : Fin 512) (k : Fin 8) (p : Fin 6) : idx_main_v101 (idx_main_v102 (ix3 b k p)) = ix1 b :=
  funext fun a => by match a with | ⟨0, _⟩ => rfl

/-- The squared distance to the centre. -/
theorem pull_apply (x0 : (⟨S512x6x1024, .f32⟩ : BufTy).Contents (Elt Ideal)) (x1 : (⟨S512x8x6x1024, .f32⟩ : BufTy).Contents (Elt Ideal)) (x2 x3 : (⟨S512, .i32⟩ : BufTy).Contents (Elt Ideal)) (b : Fin 512) (k : Fin 8) (p : Fin 6) :
    val_main_v60 (F := Ideal) x0 x1 x2 x3 (ix3 b k p) = Cert.Spec.sqDist x1 (val_main_v55 (F := Ideal) x0 x2 x3) b k p := by
  rw [val_main_v60_apply]
  rw [show (val_main_cst_13 (F := Ideal)) (Shape.Idx.first h_S_) = 0 from Ideal.ofBits_zero_f32, zero_add]
  unfold Cert.Spec.sqDist
  refine Finset.sum_congr rfl fun d _ => ?_
  rw [idx_feature b k p d, val_main_v59_apply, val_main_v58_apply, val_main_v57_apply, val_main_v56_apply, idx_spread b k p d]
  rfl

/-- The squared distance to the original. -/
theorem push_apply (x0 : (⟨S512x6x1024, .f32⟩ : BufTy).Contents (Elt Ideal)) (x1 : (⟨S512x8x6x1024, .f32⟩ : BufTy).Contents (Elt Ideal)) (b : Fin 512) (k : Fin 8) (p : Fin 6) :
    val_main_v66 (F := Ideal) x0 x1 (ix3 b k p) = Cert.Spec.sqDist x1 x0 b k p := by
  rw [val_main_v66_apply]
  rw [show (val_main_cst_14 (F := Ideal)) (Shape.Idx.first h_S_) = 0 from Ideal.ofBits_zero_f32, zero_add]
  unfold Cert.Spec.sqDist
  refine Finset.sum_congr rfl fun d _ => ?_
  rw [idx_feature' b k p d, val_main_v65_apply, val_main_v64_apply, val_main_v63_apply, val_main_v62_apply, idx_spread' b k p d]
  rfl

/-- The weighted hinge of one (sample, copy, part). -/
theorem hinge_apply (x0 : (⟨S512x6x1024, .f32⟩ : BufTy).Contents (Elt Ideal)) (x1 : (⟨S512x8x6x1024, .f32⟩ : BufTy).Contents (Elt Ideal)) (x2 x3 : (⟨S512, .i32⟩ : BufTy).Contents (Elt Ideal)) (b : Fin 512) (k : Fin 8) (p : Fin 6) :
    val_main_v103 (F := Ideal) x0 x1 x2 x3 (ix3 b k p)
      = Cert.Spec.hinge x1 x0 (val_main_v55 (F := Ideal) x0 x2 x3) (fun b => val_main_v100 (F := Ideal) x2 x3 (ix1 b)) b k p := by
  rw [val_main_v103_apply, val_main_v71_apply, val_main_v70_apply, val_main_v68_apply, val_main_v61_apply, val_main_v67_apply,
    pull_apply, push_apply, val_main_v69_apply, val_main_call1_v0_apply, val_main_v102_apply, val_main_v101_apply, idx_weight b k p]
  rfl

/-- The reference's part loss for part p is the specification's. -/
theorem loss_apply (x0 : (⟨S512x6x1024, .f32⟩ : BufTy).Contents (Elt Ideal)) (x1 : (⟨S512x8x6x1024, .f32⟩ : BufTy).Contents (Elt Ideal)) (x2 x3 : (⟨S512, .i32⟩ : BufTy).Contents (Elt Ideal)) (p : Fin 6) :
    val_main_v104 (F := Ideal) x0 x1 x2 x3 (ix1 p)
      = Cert.Spec.partLoss x1 x0 (val_main_v55 (F := Ideal) x0 x2 x3) (fun b => val_main_v100 (F := Ideal) x2 x3 (ix1 b)) p := by
  unfold val_main_v104
  simp only [Host.reduceAdd, Ideal.hostReduceAdd_def]
  rw [sum_samples_copies]
  rw [show (val_main_cst_26 (F := Ideal)) (Shape.Idx.first h_S_) = 0 from Ideal.ofBits_zero_f32, zero_add]
  unfold Cert.Spec.partLoss
  exact Finset.sum_congr rfl fun b _ => Finset.sum_congr rfl fun k _ => hinge_apply x0 x1 x2 x3 b k p

end Cert.ReferenceIdeal.Loss

end
-- ==== Proof.Bridge.lean ====
/-
  The two programs compute one number.

  The kernel's output row, taken as six part losses, is the reference's part losses: both are the specification's
  part loss over the same generated features, the same originals, the same centres and the same weights (the
  arrays the kernel's region finds are the reference's stages of them). The closing lines are the same on both
  sides, so the results agree.
-/
import proofs.«155835_j12326556139945_1_alg».proof.Proof.KLoss
import proofs.«155835_j12326556139945_1_alg».proof.Proof.Shared
import proofs.«155835_j12326556139945_1_alg».proof.Proof.RefLoss
import Idealize.ShloMosaic.Lib.ValueLayout

noncomputable section

open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ) (ρ : Dev nD → PrngReg)

/-- The weight the kernel reads for sample b is the reference's weight of sample b. -/
theorem weight_apply (c : Dev nD) (b : Fin 512) :
    Loss.weightOf m c b = Cert.ReferenceIdeal.ReadP.val_main_v100 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix1 b) :=
  (congrFun (Shared.weight_eq m c) (ix2 b (0 : Fin 1))).trans
    (broadcastInDim_apply _ bcast_S512_S512x1_0 _ (ix2 b (0 : Fin 1)) (ix1 b) (fun a => match a with
      | ⟨0, _⟩ => by show b.val = if (512 : Nat) = 1 then 0 else b.val; rw [if_neg (by decide)]))

/-- The kernel's output row, as six part losses, is the reference's part losses of the same arguments. -/
theorem loss_eq (c : Dev nD) :
    shapeCast S6 (Result.total m c) shapeCasts_S1x6_S6
      = Cert.ReferenceIdeal.ReadP.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext j
  obtain ⟨p, rfl⟩ : ∃ p : Fin 6, j = ix1 p := ⟨j 0, eq_ix1 j⟩
  refine (shapeCast_1a_a_apply _ shapeCasts_S1x6_S6 p).trans ?_
  refine (Loss.total_apply m c p).trans ?_
  rw [Cert.ReferenceIdeal.Loss.loss_apply, V_main_arg1 m c, V_main_arg0 m c, Shared.cross_eq m c]
  exact congrArg (fun w => Cert.Spec.partLoss _ _ _ w p) (funext fun b => weight_apply m c b)

/-- The kernel's result on core c: the shared closing lines applied to its part losses. -/
def kernelResult (c : Dev nD) : Buf (Elt Ideal) ((c.tc : Thread nD τ).loc main_v94) :=
  Cert.ReferenceIdeal.Closing.closing (shapeCast S6 (Result.total m c) shapeCasts_S1x6_S6) (m ((c.tc : Thread Cert.KernelIdeal.nD Cert.KernelIdeal.τ).loc Cert.KernelIdeal.main_arg2)) (m ((c.tc : Thread Cert.KernelIdeal.nD Cert.KernelIdeal.τ).loc Cert.KernelIdeal.main_arg3))

/-- The kernel's run: its result ends at `kernelResult`, its arguments unchanged. -/
theorem kernel_run : θ_run (defs (F := Ideal)) (onTc (τ := τ) (main (F := Ideal))) ⟨m, fun _ => 0, ρ⟩ fun r => ∀ c : Dev nD,
      r.2.mem ((c.tc : Thread nD τ).loc main_v94) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((Shared.closing_eq m c).trans (by rw [Result.final_out m c]; rfl)), (h c).2⟩)
    (Result.run_tail m ρ)

/-- The reference's result of the same arguments is the same number. -/
theorem reference_eq (c : Dev nD) :
    Cert.ReferenceIdeal.ReadP.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = kernelResult m c := by
  rw [Cert.ReferenceIdeal.Closing.result_eq, ← loss_eq m c]
  rfl

end Cert.Bridge

end
-- ==== Proof.lean ====
/-
  The certificate of the cross-modality hinge loss kernel against its jnp reference.

  Both programs compute, from the same arguments, the per-sample cross-modality centres and weights and the
  count of identities seen in both modalities, by the same host operations. The kernel then takes, tile by
  tile of 128 samples and copy by copy, the weighted hinges max (pull - push + margin) 0 * w, sums each tile's
  rows, and accumulates the 32 grid points' partial sums in a scratch row that it clears at the first point and
  copies out at the last; the reference sums the same weighted hinges over all samples and copies at once. Over
  the extended reals a finite sum does not depend on how its terms are grouped, so the six part losses agree,
  and the same closing lines (divide by the identity count, average, zero when the count is zero) give the same
  result. The ideal pass rewrote nothing, so the idealized kernel is the kernel's own text.
-/
import proofs.«155835_j12326556139945_1_alg».proof.Defs
import proofs.«155835_j12326556139945_1_alg».proof.Proof.Gen.Kernel
import proofs.«155835_j12326556139945_1_alg».proof.Proof.Gen.Kernel.Skeleton
import proofs.«155835_j12326556139945_1_alg».proof.Proof.Gen.Kernel.Launch
import proofs.«155835_j12326556139945_1_alg».proof.Proof.Gen.Kernel.Points
import proofs.«155835_j12326556139945_1_alg».proof.Proof.Gen.Kernel.Frame
import proofs.«155835_j12326556139945_1_alg».proof.Proof.Gen.KernelIdeal
import proofs.«155835_j12326556139945_1_alg».proof.Proof.Gen.KernelIdeal.Skeleton
import proofs.«155835_j12326556139945_1_alg».proof.Proof.Gen.KernelIdeal.Launch
import proofs.«155835_j12326556139945_1_alg».proof.Proof.Gen.KernelIdeal.Points
import proofs.«155835_j12326556139945_1_alg».proof.Proof.Gen.KernelIdeal.Frame
import proofs.«155835_j12326556139945_1_alg».proof.Proof.Gen.ReferenceIdeal
import proofs.«155835_j12326556139945_1_alg».proof.Proof.Gen.Pre_finite_inputs
import proofs.«155835_j12326556139945_1_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten by the ideal pass. -/
theorem preserves : Cert.preserves_Kernel_KernelIdeal := trivial

/-- From memories that agree on the arguments both programs end with the same result: the shared closing lines
    applied to the part losses, which are one regrouped sum. -/
theorem algebraic : Cert.algebraic_KernelIdeal_ReferenceIdeal := by
  intro m ρ m' ρ' _ hagree
  refine ⟨fun c => Cert.Bridge.kernelResult m c, Cert.Bridge.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v111_eq, (hagree c).1, (hagree c).2.1, (hagree c).2.2.1, (hagree c).2.2.2]
  exact Cert.Bridge.reference_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
